-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x1024 : Shape := ⟨2, ![1024, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8x4096x1024 .f32) (main_arg1 : FVec F S8x4096x1024 .f32) (main_arg2 : FVec F S1024x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S8x4096x1024 : Shape := ⟨3, ![8, 4096, 1024]⟩
abbrev S1024x1024 : Shape := ⟨2, ![1024, 1024]⟩
abbrev S8x4095x1024 : Shape := ⟨3, ![8, 4095, 1024]⟩
abbrev S_ : Shape := ⟨0, ![]⟩
abbrev S32768x1024 : Shape := ⟨2, ![32768, 1024]⟩
abbrev S32768x1 : Shape := ⟨2, ![32768, 1]⟩
abbrev S512x1024 : Shape := ⟨2, ![512, 1024]⟩
abbrev S512x1 : Shape := ⟨2, ![512, 1]⟩
abbrev S512 : Shape := ⟨1, ![512]⟩
abbrev S8x4096 : Shape := ⟨2, ![8, 4096]⟩
abbrev S8x4095 : Shape := ⟨2, ![8, 4095]⟩
abbrev S8x4094 : Shape := ⟨2, ![8, 4094]⟩
abbrev S8x4094x1 : Shape := ⟨3, ![8, 4094, 1]⟩
abbrev S8x4094x2 : Shape := ⟨3, ![8, 4094, 2]⟩
abbrev S8x4093x1 : Shape := ⟨3, ![8, 4093, 1]⟩
abbrev S8x4093 : Shape := ⟨2, ![8, 4093]⟩
abbrev S8 : Shape := ⟨1, ![8]⟩

abbrev nBuf : Space → Nat
  | .hbm => 57
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024x1024, .f32⟩
  | .hbm, ⟨3, _⟩ => ⟨S8x4095x1024, .f32⟩
  | .hbm, ⟨4, _⟩ => ⟨S_, .i32⟩
  | .hbm, ⟨5, _⟩ => ⟨S_, .f32⟩
  | .hbm, ⟨6, _⟩ => ⟨S8x4096x1024, .f32⟩
  | .hbm, ⟨7, _⟩ => ⟨S8x4095x1024, .f32⟩
  | .hbm, ⟨8, _⟩ => ⟨S_, .i32⟩
  | .hbm, ⟨9, _⟩ => ⟨S_, .f32⟩
  | .hbm, ⟨10, _⟩ => ⟨S8x4096x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S1024x1024, .bf16⟩
  | .hbm, ⟨15, _⟩ => ⟨S1024x1024, .bf16⟩
  | .hbm, ⟨16, _⟩ => ⟨S32768x1, .f32⟩
  | .hbm, ⟨17, _⟩ => ⟨S32768x1, .f32⟩
  | .hbm, ⟨18, _⟩ => ⟨S8x4096, .f32⟩
  | .hbm, ⟨19, _⟩ => ⟨S8x4096, .f32⟩
  | .hbm, ⟨20, _⟩ => ⟨S8x4095, .f32⟩
  | .hbm, ⟨21, _⟩ => ⟨S8x4095, .f32⟩
  | .hbm, ⟨22, _⟩ => ⟨S8x4094, .f32⟩
  | .hbm, ⟨23, _⟩ => ⟨S8x4094, .f32⟩
  | .hbm, ⟨24, _⟩ => ⟨S8x4094x1, .f32⟩
  | .hbm, ⟨25, _⟩ => ⟨S8x4094x1, .f32⟩
  | .hbm, ⟨26, _⟩ => ⟨S8x4094x2, .f32⟩
  | .hbm, ⟨27, _⟩ => ⟨S_, .f32⟩
  | .hbm, ⟨28, _⟩ => ⟨S8x4094, .f32⟩
  | .hbm, ⟨29, _⟩ => ⟨S_, .f32⟩
  | .hbm, ⟨30, _⟩ => ⟨S8x4094, .f32⟩
  | .hbm, ⟨31, _⟩ => ⟨S8x4094, .f32⟩
  | .hbm, ⟨32, _⟩ => ⟨S8x4094x1, .f32⟩
  | .hbm, ⟨33, _⟩ => ⟨S8x4094x2, .f32⟩
  | .hbm, ⟨34, _⟩ => ⟨S8x4094x2, .f32⟩
  | .hbm, ⟨35, _⟩ => ⟨S8x4094x2, .f32⟩
  | .hbm, ⟨36, _⟩ => ⟨S_, .f32⟩
  | .hbm, ⟨37, _⟩ => ⟨S8x4094, .f32⟩
  | .hbm, ⟨38, _⟩ => ⟨S8x4094x1, .f32⟩
  | .hbm, ⟨39, _⟩ => ⟨S8x4094x2, .f32⟩
  | .hbm, ⟨40, _⟩ => ⟨S8x4094x2, .f32⟩
  | .hbm, ⟨41, _⟩ => ⟨S8x4093x1, .f32⟩
  | .hbm, ⟨42, _⟩ => ⟨S8x4093, .f32⟩
  | .hbm, ⟨43, _⟩ => ⟨S8x4093x1, .f32⟩
  | .hbm, ⟨44, _⟩ => ⟨S8x4093, .f32⟩
  | .hbm, ⟨45, _⟩ => ⟨S8x4093, .f32⟩
  | .hbm, ⟨46, _⟩ => ⟨S_, .f32⟩
  | .hbm, ⟨47, _⟩ => ⟨S8x4093, .f32⟩
  | .hbm, ⟨48, _⟩ => ⟨S8x4093, .f32⟩
  | .hbm, ⟨49, _⟩ => ⟨S8x4093, .f32⟩
  | .hbm, ⟨50, _⟩ => ⟨S_, .f32⟩
  | .hbm, ⟨51, _⟩ => ⟨S8x4093, .f32⟩
  | .hbm, ⟨52, _⟩ => ⟨S8x4093, .f32⟩
  | .hbm, ⟨53, _⟩ => ⟨S8x4093, .f32⟩
  | .hbm, ⟨54, _⟩ => ⟨S_, .f32⟩
  | .hbm, ⟨55, _⟩ => ⟨S8, .f32⟩
  | .hbm, ⟨56, _⟩ => ⟨S8, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S8x4096x1024_S8x4095x1024_0_0_0 : S8x4096x1024.Slices ![0, 0, 0] S8x4095x1024
  pads_S8x4095x1024_S8x4096x1024_000_100_000 : S8x4095x1024.Pads (![0, 1, 0] : Fin 3 → Nat) ![0, 0, 0] ![0, 0, 0] S8x4096x1024
  h_S_ : 0 < S_.numel
  slices_S8x4096x1024_S8x4095x1024_0_1_0 : S8x4096x1024.Slices ![0, 1, 0] S8x4095x1024
  pads_S8x4095x1024_S8x4096x1024_000_010_000 : S8x4095x1024.Pads (![0, 0, 0] : Fin 3 → Nat) ![0, 1, 0] ![0, 0, 0] S8x4096x1024
  shapeCasts_S8x4096x1024_S32768x1024 : S8x4096x1024.ShapeCasts S32768x1024
  bitsLt_bf16_f32 : FTy.bits .bf16 < FTy.bits .f32
  transposes_S1024x1024_S1024x1024_1_0 : S1024x1024.Transposes [1, 0] S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S512x1024_S512 : S512x1024.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S32768x1_S8x4096 : S32768x1.ShapeCasts S8x4096
  slices_S8x4096_S8x4095_0_1 : S8x4096.Slices ![0, 1] S8x4095
  slices_S8x4096_S8x4095_0_0 : S8x4096.Slices ![0, 0] S8x4095
  slices_S8x4095_S8x4094_0_0 : S8x4095.Slices ![0, 0] S8x4094
  slices_S8x4095_S8x4094_0_1 : S8x4095.Slices ![0, 1] S8x4094
  bcast_S8x4094_S8x4094x1_0_1 : S8x4094.BroadcastsInDim S8x4094x1 (![0, 1] : Fin 2 → Fin S8x4094x1.rank)
  concatenates_S8x4094x1_S8x4094x1_S8x4094x2_d2 : Shape.Concatenates [S8x4094x1, S8x4094x1] S8x4094x2 2
  reducesTo_S8x4094x2_S8x4094_d2 : S8x4094x2.ReducesTo [2] S8x4094
  bcast_S_S8x4094 : S_.BroadcastsInDim S8x4094 (![] : Fin 0 → Fin S8x4094.rank)
  bcast_S8x4094x1_S8x4094x2_0_1_2 : S8x4094x1.BroadcastsInDim S8x4094x2 (![0, 1, 2] : Fin 3 → Fin S8x4094x2.rank)
  slices_S8x4094x2_S8x4093x1_0_0_1 : S8x4094x2.Slices ![0, 0, 1] S8x4093x1
  shapeCasts_S8x4093x1_S8x4093 : S8x4093x1.ShapeCasts S8x4093
  slices_S8x4094x2_S8x4093x1_0_1_0 : S8x4094x2.Slices ![0, 1, 0] S8x4093x1
  bcast_S_S8x4093 : S_.BroadcastsInDim S8x4093 (![] : Fin 0 → Fin S8x4093.rank)
  reducesTo_S8x4093_S8_d1 : S8x4093.ReducesTo [1] S8
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S32768x1024.size a
  hwx0_1 : ∀ i : grid0.Coords, EltTy.bits .f32 = 32 ∨ (Rect.block (s := S32768x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S32768x1024.size a
  hwx0_2 : ∀ i : grid0.Coords, EltTy.bits .f32 = 32 ∨ (Rect.block (s := S32768x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S32768x1.size a
  hwx0_4 : ∀ i : grid0.Coords, EltTy.bits .f32 = 32 ∨ (Rect.block (s := S32768x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S32768x1.size a
  hwx0_5 : ∀ i : grid0.Coords, EltTy.bits .f32 = 32 ∨ (Rect.block (s := S32768x1) S512x1.size (cc0_transform_5 i) (hinb0_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v4) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_1) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024x1024 : Shape := ⟨2, ![1024, 1024]⟩
abbrev S8x4095x1024 : Shape := ⟨3, ![8, 4095, 1024]⟩
abbrev S_ : Shape := ⟨0, ![]⟩
abbrev S8x4095 : Shape := ⟨2, ![8, 4095]⟩
abbrev S8x4094 : Shape := ⟨2, ![8, 4094]⟩
abbrev S8x4094x1 : Shape := ⟨3, ![8, 4094, 1]⟩
abbrev S8x4094x2 : Shape := ⟨3, ![8, 4094, 2]⟩
abbrev S8x4093x1 : Shape := ⟨3, ![8, 4093, 1]⟩
abbrev S8x4093 : Shape := ⟨2, ![8, 4093]⟩
abbrev S8 : Shape := ⟨1, ![8]⟩

abbrev nBuf : Space → Nat
  | .hbm => 49
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024x1024, .f32⟩
  | .hbm, ⟨3, _⟩ => ⟨S8x4096x1024, .f32⟩
  | .hbm, ⟨4, _⟩ => ⟨S8x4095x1024, .f32⟩
  | .hbm, ⟨5, _⟩ => ⟨S8x4095x1024, .f32⟩
  | .hbm, ⟨6, _⟩ => ⟨S8x4095x1024, .f32⟩
  | .hbm, ⟨7, _⟩ => ⟨S_, .f32⟩
  | .hbm, ⟨8, _⟩ => ⟨S8x4095, .f32⟩
  | .hbm, ⟨9, _⟩ => ⟨S8x4095x1024, .f32⟩
  | .hbm, ⟨10, _⟩ => ⟨S8x4095x1024, .f32⟩
  | .hbm, ⟨11, _⟩ => ⟨S8x4095x1024, .f32⟩
  | .hbm, ⟨12, _⟩ => ⟨S_, .f32⟩
  | .hbm, ⟨13, _⟩ => ⟨S8x4095, .f32⟩
  | .hbm, ⟨14, _⟩ => ⟨S8x4094, .f32⟩
  | .hbm, ⟨15, _⟩ => ⟨S8x4094, .f32⟩
  | .hbm, ⟨16, _⟩ => ⟨S8x4094x1, .f32⟩
  | .hbm, ⟨17, _⟩ => ⟨S8x4094x1, .f32⟩
  | .hbm, ⟨18, _⟩ => ⟨S8x4094x2, .f32⟩
  | .hbm, ⟨19, _⟩ => ⟨S_, .f32⟩
  | .hbm, ⟨20, _⟩ => ⟨S8x4094, .f32⟩
  | .hbm, ⟨21, _⟩ => ⟨S_, .f32⟩
  | .hbm, ⟨22, _⟩ => ⟨S8x4094, .f32⟩
  | .hbm, ⟨23, _⟩ => ⟨S8x4094, .f32⟩
  | .hbm, ⟨24, _⟩ => ⟨S8x4094x1, .f32⟩
  | .hbm, ⟨25, _⟩ => ⟨S8x4094x2, .f32⟩
  | .hbm, ⟨26, _⟩ => ⟨S8x4094x2, .f32⟩
  | .hbm, ⟨27, _⟩ => ⟨S8x4094x2, .f32⟩
  | .hbm, ⟨28, _⟩ => ⟨S_, .f32⟩
  | .hbm, ⟨29, _⟩ => ⟨S8x4094, .f32⟩
  | .hbm, ⟨30, _⟩ => ⟨S8x4094x1, .f32⟩
  | .hbm, ⟨31, _⟩ => ⟨S8x4094x2, .f32⟩
  | .hbm, ⟨32, _⟩ => ⟨S8x4094x2, .f32⟩
  | .hbm, ⟨33, _⟩ => ⟨S8x4093x1, .f32⟩
  | .hbm, ⟨34, _⟩ => ⟨S8x4093, .f32⟩
  | .hbm, ⟨35, _⟩ => ⟨S8x4093x1, .f32⟩
  | .hbm, ⟨36, _⟩ => ⟨S8x4093, .f32⟩
  | .hbm, ⟨37, _⟩ => ⟨S8x4093, .f32⟩
  | .hbm, ⟨38, _⟩ => ⟨S_, .f32⟩
  | .hbm, ⟨39, _⟩ => ⟨S8x4093, .f32⟩
  | .hbm, ⟨40, _⟩ => ⟨S8x4093, .f32⟩
  | .hbm, ⟨41, _⟩ => ⟨S8x4093, .f32⟩
  | .hbm, ⟨42, _⟩ => ⟨S_, .f32⟩
  | .hbm, ⟨43, _⟩ => ⟨S8x4093, .f32⟩
  | .hbm, ⟨44, _⟩ => ⟨S8x4093, .f32⟩
  | .hbm, ⟨45, _⟩ => ⟨S8x4093, .f32⟩
  | .hbm, ⟨46, _⟩ => ⟨S_, .f32⟩
  | .hbm, ⟨47, _⟩ => ⟨S8, .f32⟩
  | .hbm, ⟨48, _⟩ => ⟨S8, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]

class Facts₀ : Prop where
  slices_S8x4096x1024_S8x4095x1024_0_1_0 : S8x4096x1024.Slices ![0, 1, 0] S8x4095x1024
  slices_S8x4096x1024_S8x4095x1024_0_0_0 : S8x4096x1024.Slices ![0, 0, 0] S8x4095x1024
  reducesTo_S8x4095x1024_S8x4095_d2 : S8x4095x1024.ReducesTo [2] S8x4095
  h_S_ : 0 < S_.numel
  slices_S8x4095_S8x4094_0_0 : S8x4095.Slices ![0, 0] S8x4094
  slices_S8x4095_S8x4094_0_1 : S8x4095.Slices ![0, 1] S8x4094
  bcast_S8x4094_S8x4094x1_0_1 : S8x4094.BroadcastsInDim S8x4094x1 (![0, 1] : Fin 2 → Fin S8x4094x1.rank)
  concatenates_S8x4094x1_S8x4094x1_S8x4094x2_d2 : Shape.Concatenates [S8x4094x1, S8x4094x1] S8x4094x2 2
  reducesTo_S8x4094x2_S8x4094_d2 : S8x4094x2.ReducesTo [2] S8x4094
  bcast_S_S8x4094 : S_.BroadcastsInDim S8x4094 (![] : Fin 0 → Fin S8x4094.rank)
  bcast_S8x4094x1_S8x4094x2_0_1_2 : S8x4094x1.BroadcastsInDim S8x4094x2 (![0, 1, 2] : Fin 3 → Fin S8x4094x2.rank)
  slices_S8x4094x2_S8x4093x1_0_0_1 : S8x4094x2.Slices ![0, 0, 1] S8x4093x1
  shapeCasts_S8x4093x1_S8x4093 : S8x4093x1.ShapeCasts S8x4093
  slices_S8x4094x2_S8x4093x1_0_1_0 : S8x4094x2.Slices ![0, 1, 0] S8x4093x1
  bcast_S_S8x4093 : S_.BroadcastsInDim S8x4093 (![] : Fin 0 → Fin S8x4093.rank)
  reducesTo_S8x4093_S8_d1 : S8x4093.ReducesTo [1] S8
  dot_S8x4096x1024_S1024x1024_S8x4096x1024_2_1_01_0_n_n_wf : DotDims.WF S8x4096x1024 S1024x1024 S8x4096x1024 [2] [1] [0, 1] [0] [] []

variable [Facts₀]

def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf

class Facts : Prop extends Facts₀ where

variable [Facts]
-- ==== Proof.Spec.lean ====
/-
  The mathematics both programs compute, stated once and free of either program's text.

  From `query`, `key` : [8, 4096, 1024] and `W` : [1024, 1024] form the projected rows
  `inter[b, s, o] = ∑ h, query[b, s, h] * W[o, h]`. Only two off-diagonals of `inter · keyᵀ` are used:
    left[b, j]  = ⟨inter[b, j+1], key[b, j]⟩       (the entry just below the diagonal),
    right[b, j] = ⟨inter[b, j+1], key[b, j+2]⟩     (the entry just above it, one row further on),
  for j < 4094. The result is a function `tail` of these two [8, 4094] arrays alone: a two-way softmax of
  (left, right) at every position, the product of neighbouring probabilities, a square root and a logarithm
  with their small offsets, summed over the positions and exponentiated. Nothing here depends on how the
  rows are tiled or in which order the sums are taken.
-/
import Idealize.ShloMosaic.PureOps
import Idealize.ShloMosaic.PureOps.Ideal
import Idealize.ShloMosaic.Lib.ValueIdx

noncomputable section

namespace Cert.Band

open Idealize.ShloMosaic Idealize.ShloMosaic.ValueIdx

/-! ## Shapes -/

abbrev Sq : Shape := ⟨3, ![8, 4096, 1024]⟩
abbrev Sw : Shape := ⟨2, ![1024, 1024]⟩
abbrev Sb : Shape := ⟨2, ![8, 4094]⟩
abbrev Sb1 : Shape := ⟨3, ![8, 4094, 1]⟩
abbrev Sb2 : Shape := ⟨3, ![8, 4094, 2]⟩
abbrev Sp1 : Shape := ⟨3, ![8, 4093, 1]⟩
abbrev Sp : Shape := ⟨2, ![8, 4093]⟩
abbrev S0 : Shape := ⟨0, ![]⟩
abbrev Sr : Shape := ⟨1, ![8]⟩

theorem hS0 : 0 < S0.numel := by decide
theorem hcol : Sb.BroadcastsInDim Sb1 (![0, 1] : Fin 2 → Fin Sb1.rank) := by decide
theorem hcat : Shape.Concatenates [Sb1, Sb1] Sb2 2 := by decide
theorem hred2 : Sb2.ReducesTo [2] Sb := by decide
theorem hsplatb : S0.BroadcastsInDim Sb (![] : Fin 0 → Fin Sb.rank) := by decide
theorem hpair : Sb1.BroadcastsInDim Sb2 (![0, 1, 2] : Fin 3 → Fin Sb2.rank) := by decide
theorem hcutR : Sb2.Slices ![0, 0, 1] Sp1 := by decide
theorem hcutL : Sb2.Slices ![0, 1, 0] Sp1 := by decide
theorem hdrop : Sp1.ShapeCasts Sp := by decide
theorem hsplatp : S0.BroadcastsInDim Sp (![] : Fin 0 → Fin Sp.rank) := by decide
theorem hredp : Sp.ReducesTo [1] Sr := by decide

/-! ## The two band scores, index by index -/

/-- `inter[b, s, o]`: row `(b, s)` of the query against row `o` of `W`. -/
def proj (q : Sq.Idx → EReal) (W : Sw.Idx → EReal) (b : Fin 8) (s : Fin 4096) (o : Fin 1024) : EReal :=
  ∑ h : Fin 1024, q (ix3 b s h) * W (ix2 o h)

/-- `left[b, j] = ∑ o, inter[b, j+1, o] * key[b, j, o]`. -/
def leftBand (q k : Sq.Idx → EReal) (W : Sw.Idx → EReal) : Sb.Idx → EReal := fun i =>
  ∑ o : Fin 1024, proj q W (i 0) ⟨1 + (i 1).val, by have h : (i 1).val < 4094 := (i 1).isLt; omega⟩ o
    * k (ix3 (i 0) ⟨(i 1).val, by have h : (i 1).val < 4094 := (i 1).isLt; omega⟩ o)

/-- `right[b, j] = ∑ o, inter[b, j+1, o] * key[b, j+2, o]`. -/
def rightBand (q k : Sq.Idx → EReal) (W : Sw.Idx → EReal) : Sb.Idx → EReal := fun i =>
  ∑ o : Fin 1024, proj q W (i 0) ⟨1 + (i 1).val, by have h : (i 1).val < 4094 := (i 1).isLt; omega⟩ o
    * k (ix3 (i 0) ⟨2 + (i 1).val, by have h : (i 1).val < 4094 := (i 1).isLt; omega⟩ o)

/-! ## From the two band scores to the result -/

variable {F : FTy → Type} [FloatOps F]

/-- The result as a function of the two band-score arrays: pair them along a new last axis, take the softmax over
    that pair (subtract the pair's maximum, exponentiate, divide by the pair's sum), multiply the right probability
    at position `j` by the left one at `j + 1`, and finish with `exp (∑ j, log (sqrt (· + ε₁) + ε₂))`. -/
def tail (L R : FVec F Sb .f32) : FVec F Sr .f32 :=
  let pairs : FVec F Sb2 .f32 :=
    concatenate Sb2 2 [⟨Sb1, broadcastInDim Sb1 ![0, 1] hcol L⟩, ⟨Sb1, broadcastInDim Sb1 ![0, 1] hcol R⟩] hcat
  let top : FVec F Sb .f32 :=
    maximumf (broadcastInDim Sb ![] hsplatb (constant S0 .f32 0xFF800000#32))
      (Host.reduce FloatOps.maximumf pairs (constant S0 .f32 0xFF800000#32) hred2 hS0)
  let e : FVec F Sb2 .f32 :=
    Host.exp (subf pairs (broadcastInDim Sb2 ![0, 1, 2] hpair (broadcastInDim Sb1 ![0, 1] hcol top)))
  let total : FVec F Sb .f32 := Host.reduceAdd e (constant S0 .f32 0x00000000#32) hred2 hS0
  let pr : FVec F Sb2 .f32 :=
    Host.divf e (broadcastInDim Sb2 ![0, 1, 2] hpair (broadcastInDim Sb1 ![0, 1] hcol total))
  let prRight : FVec F Sp .f32 := shapeCast Sp (extractStridedSlice Sp1 ![0, 0, 1] pr hcutR) hdrop
  let prLeft : FVec F Sp .f32 := shapeCast Sp (extractStridedSlice Sp1 ![0, 1, 0] pr hcutL) hdrop
  let root : FVec F Sp .f32 :=
    Host.sqrt (addf (mulf prRight prLeft) (broadcastInDim Sp ![] hsplatp (constant S0 .f32 0x3089705F#32)))
  let lg : FVec F Sp .f32 :=
    Host.log (addf root (broadcastInDim Sp ![] hsplatp (constant S0 .f32 0x322BCC77#32)))
  Host.exp (Host.reduceAdd lg (constant S0 .f32 0x00000000#32) hredp hS0)

end Cert.Band

end
-- ==== Proof.RefSide.lean ====
/-
  The reference's side. Its result is `Band.tail` of two of its own intermediate arrays, and those two arrays are
  the band scores of the specification:
    the slice [0:4094] of `∑ o, inter[:, 1:, o] * key[:, :-1, o]` is `left`,
    the slice [1:4095] of `∑ o, inter[:, :-1, o] * key[:, 1:, o]` is `right`.
  Each is read at an index `(b, j)`: the outer slice and the two inner slices only shift the row coordinate, the
  host sum starts from the real number zero, and the contraction against `W` is the sum over its second axis.
-/
import proofs.«103119_j42906723287547_1_alg».proof.Proof.Gen.ReferenceIdeal.Read
import proofs.«103119_j42906723287547_1_alg».proof.Proof.Spec
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

variable {F : FTy → Type} [FloatOps F]

/-- From its two [8, 4094] arrays on, the reference's text IS the specification's `tail`. -/
theorem result_is_tail (x0 x1 : (⟨S8x4096x1024, .f32⟩ : BufTy).Contents (Elt F)) (x2 : (⟨S1024x1024, .f32⟩ : BufTy).Contents (Elt F)) :
    val_main_v37 (F := F) x0 x1 x2 = Cert.Band.tail (F := F) (val_main_v9 (F := F) x0 x1 x2) (val_main_v10 (F := F) x0 x1 x2) := by
  unfold val_main_v37 val_main_v36 val_main_v35 val_main_v34 val_main_v33 val_main_v32 val_main_v31 val_main_v30 val_main_v29
    val_main_v28 val_main_v27 val_main_v26 val_main_v25 val_main_v24 val_main_v23 val_main_v22 val_main_v21 val_main_v20
    val_main_v19 val_main_v18 val_main_v17 val_main_v16 val_main_v15 val_main_v14 val_main_v13 val_main_v12 val_main_v11
    val_main_cst_1 val_main_cst_2 val_main_cst_3 val_main_cst_4 val_main_cst_5 val_main_cst_6 Cert.Band.tail
  rfl

/-- The lower band: the reference's first [8, 4094] array is `left`. -/
theorem left_eq (x0 x1 : (⟨S8x4096x1024, .f32⟩ : BufTy).Contents (Elt Ideal)) (x2 : (⟨S1024x1024, .f32⟩ : BufTy).Contents (Elt Ideal)) :
    val_main_v9 (F := Ideal) x0 x1 x2 = Cert.Band.leftBand x0 x1 x2 := by
  funext i
  rw [val_main_v9_apply, val_main_v4_apply, val_main_cst_apply]
  show Ideal.ofBits .f32 0x00000000#32 + _ = _
  rw [Ideal.ofBits_zero_f32, zero_add]
  unfold Cert.Band.leftBand
  refine Finset.sum_congr rfl fun o _ => ?_
  rw [val_main_v3_apply, val_main_v1_apply, val_main_v2_apply, val_main_v0_apply]
  unfold Cert.Band.proj
  show (∑ h : Fin 1024, _ * _) * _ = (∑ h : Fin 1024, _ * _) * _
  refine congrArg₂ (· * ·) (Finset.sum_congr rfl fun h _ => congrArg₂ (· * ·) (congrArg x0 ?_) (congrArg x2 ?_)) (congrArg x1 ?_)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl
  · funext a; apply Fin.ext
    match a with
    | ⟨0, _⟩ => rfl
    | ⟨1, _⟩ => rfl
    | ⟨2, _⟩ => rfl

/-- The upper band: the reference's second [8, 4094] array is `right`. -/
theorem right_eq (x0 x1 : (⟨S8x4096x1024, .f32⟩ : BufTy).Contents (Elt Ideal)) (x2 : (⟨S1024x1024, .f32⟩ : BufTy).Contents (Elt Ideal)) :
    val_main_v10 (F := Ideal) x0 x1 x2 = Cert.Band.rightBand x0 x1 x2 := by
  funext i
  rw [val_main_v10_apply, val_main_v8_apply, val_main_cst_0_apply]
  show Ideal.ofBits .f32 0x00000000#32 + _ = _
  rw [Ideal.ofBits_zero_f32, zero_add]
  unfold Cert.Band.rightBand
  refine Finset.sum_congr rfl fun o _ => ?_
  rw [val_main_v7_apply, val_main_v5_apply, val_main_v6_apply, val_main_v0_apply]
  unfold Cert.Band.proj
  show (∑ h : Fin 1024, _ * _) * _ = (∑ h : Fin 1024, _ * _) * _
  refine congrArg₂ (· * ·) (Finset.sum_congr rfl fun h _ => congrArg₂ (· * ·) (congrArg x0 ?_) (congrArg x2 ?_)) (congrArg x1 ?_)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl
  · funext a; apply Fin.ext
    match a with
    | ⟨0, _⟩ => rfl
    | ⟨1, _⟩ => show 1 + (1 + (i 1).val) = 2 + (i 1).val; omega
    | ⟨2, _⟩ => rfl

end Cert.ReferenceIdeal.RefValue

end
-- ==== Proof.LibKeepdimsColumn.lean ====
/-
  The column forms of a keepdims reduction, read at an index given by coordinates.

  A row-wise reduction with `keepdims=True` leaves an `[a]` vector that the body first re-lays as a column `[a, 1]`
  and later spreads over the row's `b` lanes. Both steps move no data: the column holds entry `i` of the vector at
  `(i, 0)`, and the spread array holds at `(p, c)` the column's entry of row `p`, whatever the lane `c`.
  These are the two lemmas Lib/ValueLayout.lean has for the ROW forms (`[a] → [1, a]`, `[1, b] → [a, b]`) stated for the
  column forms, over indices written `ix1` / `ix2`.
-/
import Idealize.ShloMosaic.Lib.ValueIdx
import Idealize.ShloMosaic.Lib.Pipeline.Value

namespace Idealize.ShloMosaic.ValueIdx

open Idealize.ShloMosaic

variable {α : Type}

/-- An `[a]` array cast to `[a, 1]` reads, at `(i, u)`, the operand at `i`, whatever the unit coordinate `u`:
    the row-major position of `(i, u)` in `[a, 1]` is `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`: the unit axis is
    read at `0`, the row axis at `p` (also when `a = 1`, where `p = 0`). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.KernelPayload.lean ====
/-
  The kernel body's arithmetic at an index.

  On a tile of 512 rows the body multiplies the query tile `x` [512, 1024] by the resident matrix `wt` [1024, 1024]
  (the transposed weight), multiplies the product entrywise by a tile of shifted keys and sums each row:
    row `p` of the first output  = ∑ o, (∑ h, x[p, h] * wt[h, o]) * kl[p, o],
    row `p` of the second output = ∑ o, (∑ h, x[p, h] * wt[h, o]) * kr[p, o].
  Over the extended reals the narrowing of the operands to a shorter float format changes nothing, the block product
  into a zero accumulator is the plain sum over the contracted index, and the row reduction is the sum over the
  row's lanes; the final [512] → [512, 1] re-laying moves no data.
-/
import proofs.«103119_j42906723287547_1_alg».proof.Proof.Gen.KernelIdeal.Skeleton
import proofs.«103119_j42906723287547_1_alg».proof.Proof.LibKeepdimsColumn
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx

/-! ## The operand indices of the block product -/

theorem lhs_axis0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_axis1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_axis0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_axis1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-! ## The block product -/

/-- Entry `(p, o)` of the tile's product with the resident matrix: the sum over the contracted index `h`. -/
theorem product_apply (x : FVec Ideal S512x1024 .f32) (wt : FVec Ideal S1024x1024 .bf16) (p : Fin 512) (o : Fin 1024) :
    k0_pay1 (F := Ideal) x wt (ix2 p o) = ∑ h : Fin 1024, x (ix2 p h) * wt (ix2 h o) := by
  unfold k0_pay1
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p o) ((ValueIdx.contrEquiv1 dot_S512x1024_S1024x1024_S512x1024_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S512x1024_S1024x1024_S512x1024_1_0_0_1_n_n.rhsIdx (ix2 p o) ((ValueIdx.contrEquiv1 dot_S512x1024_S1024x1024_S512x1024_1_0_0_1_n_n 1024 rfl rfl).symm k) = ix2 k o := funext fun a => Fin.ext (by
    match a with
    | ⟨0, _⟩ => exact (rhs_axis0 _ _).trans hk
    | ⟨1, _⟩ => exact rhs_axis1 _ _)
  rw [el, er, shapeCast_self, shapeCast_self]
  rfl

/-! ## The two row sums -/

theorem lift_row (p : Fin 512) (o : Fin 1024) : reduces_S512x1024_S512.lift (ix1 p) o = ix2 p o :=
  funext fun a => Fin.ext (by
    match a with
    | ⟨0, _⟩ => rfl
    | ⟨1, _⟩ => rfl)

/-- Row `p` of the first output tile. -/
theorem rowSumLeft_apply (x kl : FVec Ideal S512x1024 .f32) (wt : FVec Ideal S1024x1024 .bf16) (p : Fin 512) (u : Fin 1) :
    k0_pay2 (F := Ideal) x wt kl (ix2 p u) = ∑ o : Fin 1024, (∑ h : Fin 1024, x (ix2 p h) * wt (ix2 h o)) * kl (ix2 p o) := by
  unfold k0_pay2
  refine (shapeCast_a_a1_apply _ _ p u).trans ?_
  refine (Ideal.multiReduction_add_single _ _ reduces_S512x1024_S512 _ _ (ix1 p)).trans ?_
  show (∑ o : Fin 1024, mulf (k0_pay1 (F := Ideal) x wt) (shapeCast S512x1024 kl shapeCasts_S512x1024_S512x1024)
    (reduces_S512x1024_S512.lift (ix1 p) o)) = _
  refine Finset.sum_congr rfl fun o _ => ?_
  rw [lift_row, mulf_apply, product_apply, shapeCast_self]

/-- Row `p` of the second output tile. -/
theorem rowSumRight_apply (x kr : FVec Ideal S512x1024 .f32) (wt : FVec Ideal S1024x1024 .bf16) (p : Fin 512) (u : Fin 1) :
    k0_pay3 (F := Ideal) x wt kr (ix2 p u) = ∑ o : Fin 1024, (∑ h : Fin 1024, x (ix2 p h) * wt (ix2 h o)) * kr (ix2 p o) := by
  unfold k0_pay3
  refine (shapeCast_a_a1_apply _ _ p u).trans ?_
  refine (Ideal.multiReduction_add_single _ _ reduces_S512x1024_S512 _ _ (ix1 p)).trans ?_
  show (∑ o : Fin 1024, mulf (k0_pay1 (F := Ideal) x wt) (shapeCast S512x1024 kr shapeCasts_S512x1024_S512x1024)
    (reduces_S512x1024_S512.lift (ix1 p) o)) = _
  refine Finset.sum_congr rfl fun o _ => ?_
  rw [lift_row, mulf_apply, product_apply, shapeCast_self]

end Cert.KernelIdeal.Payload

end
-- ==== Proof.KernelArrays.lean ====
/-
  From tiles to whole arrays.

  The grid has 64 points; point `t` sees rows `512 t … 512 t + 511` of the three [32768, 1024] operands, all of the
  resident [1024, 1024] matrix, and writes rows `512 t … 512 t + 511` of the two [32768, 1] results. Since the body
  treats every row by itself, what point `t` writes is the restriction to its rows of ONE function of the whole
  operand arrays,
    rowScores Q K Wt [r, 0] = ∑ o, (∑ h, Q[r, h] * Wt[h, o]) * K[r, o],
  and the 64 tiles cover every row (row `r` lies in tile `r / 512`), so after the run the two result arrays are
  `rowScores` of the operands as the region found them.
-/
import proofs.«103119_j42906723287547_1_alg».proof.Proof.Gen.KernelIdeal.Frame
import proofs.«103119_j42906723287547_1_alg».proof.Proof.KernelPayload
import Idealize.ShloMosaic.Lib.Pipeline.Value

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- One row of scores from whole arrays: `∑ o, (∑ h, Q[r, h] * Wt[h, o]) * K[r, o]` at `(r, 0)`. -/
def rowScores (Q K : S32768x1024.Idx → EReal) (Wt : S1024x1024.Idx → EReal) : S32768x1.Idx → EReal := fun i =>
  ∑ o : Fin 1024, (∑ h : Fin 1024, Q (ix2 (i 0) h) * Wt (ix2 h o)) * K (ix2 (i 0) o)

/-! ## The operands as the region finds them, and their tiles, at literal types -/

abbrev Qarr (c : Dev nD) : S32768x1024.Idx → EReal := V m c main_v4
abbrev KLarr (c : Dev nD) : S32768x1024.Idx → EReal := V m c main_v5
abbrev KRarr (c : Dev nD) : S32768x1024.Idx → EReal := V m c main_v6
abbrev Warr (c : Dev nD) : S1024x1024.Idx → EReal := V m c main_v8

abbrev qTile (c : Dev nD) (t : Fin cfg0.N) : FVec Ideal S512x1024 .f32 := iblk m c 0 t
abbrev klTile (c : Dev nD) (t : Fin cfg0.N) : FVec Ideal S512x1024 .f32 := iblk m c 1 t
abbrev krTile (c : Dev nD) (t : Fin cfg0.N) : FVec Ideal S512x1024 .f32 := iblk m c 2 t
abbrev wTile (c : Dev nD) (t : Fin cfg0.N) : FVec Ideal S1024x1024 .bf16 := iblk m c 3 t

theorem hz : (![0, 0] : Fin 2 → Nat) = fun _ => 0 := funext fun a => by fin_cases a <;> rfl

/-- The index maps over the grid: the row-tiled windows are at block `(t, 0)`, the resident one at `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row `p` of point `t`'s query tile is row `512 t + p` of the array. -/
theorem qTile_apply (c : Dev nD) (t : Fin cfg0.N) (p : Fin 512) (h : Fin 1024) (r : Fin 32768) (hr : r.val = t.val * 512 + p.val) :
    qTile m c t (ix2 p h) = Qarr m c (ix2 r h) := by
  obtain ⟨e0, e1, -⟩ := idx_facts t
  show V m c main_v4 (((cfg0.win 0).blk t).view.emb (ix2 p h)) = V m c main_v4 (ix2 r h)
  refine congrArg (V m c main_v4) (funext fun a => Fin.ext ?_)
  match a with
  | ⟨0, _⟩ => show win0_0.index t (0 : Fin 2) * 512 + 1 * p.val = r.val; omega
  | ⟨1, _⟩ => show win0_0.index t (1 : Fin 2) * 1024 + 1 * h.val = h.val; omega

theorem klTile_apply (c : Dev nD) (t : Fin cfg0.N) (p : Fin 512) (o : Fin 1024) (r : Fin 32768) (hr : r.val = t.val * 512 + p.val) :
    klTile m c t (ix2 p o) = KLarr m c (ix2 r o) := by
  obtain ⟨-, -, e0, e1, -⟩ := idx_facts t
  show V m c main_v5 (((cfg0.win 1).blk t).view.emb (ix2 p o)) = V m c main_v5 (ix2 r o)
  refine congrArg (V m c main_v5) (funext fun a => Fin.ext ?_)
  match a with
  | ⟨0, _⟩ => show win0_1.index t (0 : Fin 2) * 512 + 1 * p.val = r.val; omega
  | ⟨1, _⟩ => show win0_1.index t (1 : Fin 2) * 1024 + 1 * o.val = o.val; omega

theorem krTile_apply (c : Dev nD) (t : Fin cfg0.N) (p : Fin 512) (o : Fin 1024) (r : Fin 32768) (hr : r.val = t.val * 512 + p.val) :
    krTile m c t (ix2 p o) = KRarr m c (ix2 r o) := by
  obtain ⟨-, -, -, -, e0, e1, -⟩ := idx_facts t
  show V m c main_v6 (((cfg0.win 2).blk t).view.emb (ix2 p o)) = V m c main_v6 (ix2 r o)
  refine congrArg (V m c main_v6) (funext fun a => Fin.ext ?_)
  match a with
  | ⟨0, _⟩ => show win0_2.index t (0 : Fin 2) * 512 + 1 * p.val = r.val; omega
  | ⟨1, _⟩ => show win0_2.index t (1 : Fin 2) * 1024 + 1 * o.val = o.val; omega

/-- Every point sees the whole resident matrix. -/
theorem wTile_apply (c : Dev nD) (t : Fin cfg0.N) (h o : Fin 1024) :
    wTile m c t (ix2 h o) = Warr m c (ix2 h o) := by
  obtain ⟨-, -, -, -, -, -, e0, e1, -⟩ := idx_facts t
  show V m c main_v8 (((cfg0.win 3).blk t).view.emb (ix2 h o)) = V m c main_v8 (ix2 h o)
  refine congrArg (V m c main_v8) (funext fun a => Fin.ext ?_)
  match a with
  | ⟨0, _⟩ => show win0_3.index t (0 : Fin 2) * 1024 + 1 * h.val = h.val; omega
  | ⟨1, _⟩ => show win0_3.index t (1 : Fin 2) * 1024 + 1 * o.val = o.val; omega

/-! ## One tile's rows are rows of `rowScores` -/

theorem tileLeft_eq (x kl : FVec Ideal S512x1024 .f32) (wt : FVec Ideal S1024x1024 .bf16)
    (Q K : S32768x1024.Idx → EReal) (Wt : S1024x1024.Idx → EReal) (p : Fin 512) (u : Fin 1) (i : S32768x1.Idx)
    (hx : ∀ h : Fin 1024, x (ix2 p h) = Q (ix2 (i 0) h)) (hk : ∀ o : Fin 1024, kl (ix2 p o) = K (ix2 (i 0) o))
    (hw : ∀ h o : Fin 1024, wt (ix2 h o) = Wt (ix2 h o)) :
    k0_pay2 (F := Ideal) x wt kl (ix2 p u) = rowScores Q K Wt i := by
  rw [Payload.rowSumLeft_apply]
  unfold rowScores
  refine Finset.sum_congr rfl fun o _ => ?_
  rw [hk o]
  refine congrArg (· * K (ix2 (i 0) o)) (Finset.sum_congr rfl fun h _ => ?_)
  rw [hx h, hw h o]

theorem tileRight_eq (x kr : FVec Ideal S512x1024 .f32) (wt : FVec Ideal S1024x1024 .bf16)
    (Q K : S32768x1024.Idx → EReal) (Wt : S1024x1024.Idx → EReal) (p : Fin 512) (u : Fin 1) (i : S32768x1.Idx)
    (hx : ∀ h : Fin 1024, x (ix2 p h) = Q (ix2 (i 0) h)) (hk : ∀ o : Fin 1024, kr (ix2 p o) = K (ix2 (i 0) o))
    (hw : ∀ h o : Fin 1024, wt (ix2 h o) = Wt (ix2 h o)) :
    k0_pay3 (F := Ideal) x wt kr (ix2 p u) = rowScores Q K Wt i := by
  rw [Payload.rowSumRight_apply]
  unfold rowScores
  refine Finset.sum_congr rfl fun o _ => ?_
  rw [hk o]
  refine congrArg (· * K (ix2 (i 0) o)) (Finset.sum_congr rfl fun h _ => ?_)
  rw [hx h, hw h o]

/-! ## What each point writes back -/

/-- Point `t` writes, to the first result, tile `t` of `rowScores` of the query, left-shifted keys and resident matrix. -/
theorem flushedLeft_eq (c : Dev nD) (t : Fin cfg0.N) :
    (dats m 0 c).flushed 4 t = ((cfg0.win 4).blk t).view.read (Elt Ideal) (rowScores (Qarr m c) (KLarr m c) (Warr m c)) := by
  show (cfg0.win 4).cut (grid0.coords t) ((dats m 0 c).after 4 t) = _
  rw [after0_4]
  unfold out0_4
  rw [View.canon_unit_zero hz]
  simp only [View.ld_unit_zero (S := S512x1024) hz, View.ld_unit_zero (S := S1024x1024) hz]
  obtain ⟨-, -, -, -, -, -, -, -, e0, e1, -⟩ := idx_facts t
  funext j
  have hrow : ((((cfg0.win 4).blk t).view.emb j) 0).val = t.val * 512 + (j 0).val := by
    show win0_4.index t (0 : Fin 2) * 512 + 1 * (j 0).val = _; omega
  refine (congrArg (k0_pay2 (F := Ideal) (qTile m c t) (wTile m c t) (klTile m c t)) (eq_ix2 ((cfg0.win 4).xinj (grid0.coords t) j))).trans ?_
  exact tileLeft_eq (qTile m c t) (klTile m c t) (wTile m c t) (Qarr m c) (KLarr m c) (Warr m c) _ _ (((cfg0.win 4).blk t).view.emb j)
    (fun h => qTile_apply m c t _ h _ hrow) (fun o => klTile_apply m c t _ o _ hrow) (fun h o => wTile_apply m c t h o)

/-- Point `t` writes, to the second result, tile `t` of `rowScores` with the right-shifted keys. -/
theorem flushedRight_eq (c : Dev nD) (t : Fin cfg0.N) :
    (dats m 0 c).flushed 5 t = ((cfg0.win 5).blk t).view.read (Elt Ideal) (rowScores (Qarr m c) (KRarr m c) (Warr m c)) := by
  show (cfg0.win 5).cut (grid0.coords t) ((dats m 0 c).after 5 t) = _
  rw [after0_5]
  unfold out0_5
  rw [View.canon_unit_zero hz]
  simp only [View.ld_unit_zero (S := S512x1024) hz, View.ld_unit_zero (S := S1024x1024) hz]
  obtain ⟨-, -, -, -, -, -, -, -, -, -, e0, e1⟩ := idx_facts t
  funext j
  have hrow : ((((cfg0.win 5).blk t).view.emb j) 0).val = t.val * 512 + (j 0).val := by
    show win0_5.index t (0 : Fin 2) * 512 + 1 * (j 0).val = _; omega
  refine (congrArg (k0_pay3 (F := Ideal) (qTile m c t) (wTile m c t) (krTile m c t)) (eq_ix2 ((cfg0.win 5).xinj (grid0.coords t) j))).trans ?_
  exact tileRight_eq (qTile m c t) (krTile m c t) (wTile m c t) (Qarr m c) (KRarr m c) (Warr m c) _ _ (((cfg0.win 5).blk t).view.emb j)
    (fun h => qTile_apply m c t _ h _ hrow) (fun o => krTile_apply m c t _ o _ hrow) (fun h o => wTile_apply m c t h o)

/-! ## The tiles cover the results -/

theorem mem_tileLeft (t : Fin cfg0.N) (i : S32768x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v9_0).slice (win0_4.rect t)).set ↔ _
  rw [View.set_slice_whole, Rect.mem_set_unit]
  exact Iff.rfl

theorem mem_tileRight (t : Fin cfg0.N) (i : S32768x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v9_1).slice (win0_5.rect t)).set ↔ _
  rw [View.set_slice_whole, Rect.mem_set_unit]
  exact Iff.rfl

theorem tile_lt (i : S32768x1.Idx) : (i 0).val / 512 < cfg0.N := by
  have hi0 : (i 0).val < 32768 := (i 0).isLt
  show (i 0).val / 512 < grid0.N
  rw [N_0]; omega

/-- Row `r` of the first result lies in tile `r / 512`. -/
theorem coverLeft (i : S32768x1.Idx) : ∃ t : Fin cfg0.N, (cfg0.win 4).flush t = true ∧ i ∈ ((cfg0.win 4).blk t).view.set := by
  have hi0 : (i 0).val < 32768 := (i 0).isLt
  have hi1 : (i 1).val < 1 := (i 1).isLt
  refine ⟨⟨(i 0).val / 512, tile_lt i⟩, flush0_4 _, ?_⟩
  rw [mem_tileLeft]
  obtain ⟨-, -, -, -, -, -, -, -, e0, e1, -⟩ := idx_facts ⟨(i 0).val / 512, tile_lt i⟩
  intro a
  match a with
  | ⟨0, _⟩ =>
    show win0_4.index ⟨(i 0).val / 512, tile_lt i⟩ (0 : Fin 2) * 512 ≤ (i 0).val ∧ (i 0).val < win0_4.index ⟨(i 0).val / 512, tile_lt i⟩ (0 : Fin 2) * 512 + 512
    rw [e0]; show (i 0).val / 512 * 512 ≤ (i 0).val ∧ (i 0).val < (i 0).val / 512 * 512 + 512; omega
  | ⟨1, _⟩ =>
    show win0_4.index ⟨(i 0).val / 512, tile_lt i⟩ (1 : Fin 2) * 1 ≤ (i 1).val ∧ (i 1).val < win0_4.index ⟨(i 0).val / 512, tile_lt i⟩ (1 : Fin 2) * 1 + 1
    rw [e1]; omega

theorem coverRight (i : S32768x1.Idx) : ∃ t : Fin cfg0.N, (cfg0.win 5).flush t = true ∧ i ∈ ((cfg0.win 5).blk t).view.set := by
  have hi0 : (i 0).val < 32768 := (i 0).isLt
  have hi1 : (i 1).val < 1 := (i 1).isLt
  refine ⟨⟨(i 0).val / 512, tile_lt i⟩, flush0_5 _, ?_⟩
  rw [mem_tileRight]
  obtain ⟨-, -, -, -, -, -, -, -, -, -, e0, e1⟩ := idx_facts ⟨(i 0).val / 512, tile_lt i⟩
  intro a
  match a with
  | ⟨0, _⟩ =>
    show win0_5.index ⟨(i 0).val / 512, tile_lt i⟩ (0 : Fin 2) * 512 ≤ (i 0).val ∧ (i 0).val < win0_5.index ⟨(i 0).val / 512, tile_lt i⟩ (0 : Fin 2) * 512 + 512
    rw [e0]; show (i 0).val / 512 * 512 ≤ (i 0).val ∧ (i 0).val < (i 0).val / 512 * 512 + 512; omega
  | ⟨1, _⟩ =>
    show win0_5.index ⟨(i 0).val / 512, tile_lt i⟩ (1 : Fin 2) * 1 ≤ (i 1).val ∧ (i 1).val < win0_5.index ⟨(i 0).val / 512, tile_lt i⟩ (1 : Fin 2) * 1 + 1
    rw [e1]; omega

/-! ## The two result arrays after the run -/

theorem finalLeft (c : Dev nD) : (dats m 0 c).arrAt 4 cfg0.N = rowScores (Qarr m c) (KLarr m c) (Warr m c) :=
  (dats m 0 c).arrAt_eq_of_cover 4 (rowScores (Qarr m c) (KLarr m c) (Warr m c)) (fun t _ => flushedLeft_eq m c t) coverLeft

theorem finalRight (c : Dev nD) : (dats m 0 c).arrAt 5 cfg0.N = rowScores (Qarr m c) (KRarr m c) (Warr m c) :=
  (dats m 0 c).arrAt_eq_of_cover 5 (rowScores (Qarr m c) (KRarr m c) (Warr m c)) (fun t _ => flushedRight_eq m c t) coverRight

end Cert.KernelIdeal.Arrays

end
-- ==== Proof.KernelHostPre.lean ====
/-
  The operands the region finds, in terms of the program's arguments.

  Before the launch the host lays the arguments out for the kernel:
    Q   = query re-laid as [32768, 1024]: row `4096 b + s` is `query[b, s, :]`;
    KL  = key shifted DOWN one position along the sequence (a zero row in front, the last row dropped), re-laid the
          same way: row `4096 b + s` is `key[b, s - 1, :]` for `s ≥ 1`;
    KR  = key shifted UP one position (the first row dropped, a zero row behind): row `4096 b + s` is
          `key[b, s + 1, :]` for `s ≤ 4094`;
    Wt  = the weight transposed (its narrowing to a shorter float format is the identity over the extended reals):
          `Wt[h, o] = W[o, h]`.
  Only the rows `s = j + 1` with `j < 4094` are ever used afterwards, so the two zero rows are never read and the
  lemmas below are stated at those rows.
-/
import proofs.«103119_j42906723287547_1_alg».proof.Proof.Gen.KernelIdeal.Frame
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run

noncomputable section

namespace Cert.KernelIdeal.HostPre

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

abbrev query (c : Dev nD) : S8x4096x1024.Idx → EReal := m ((c : Thread nD τ).loc main_arg0)
abbrev key (c : Dev nD) : S8x4096x1024.Idx → EReal := m ((c : Thread nD τ).loc main_arg1)
abbrev weight (c : Dev nD) : S1024x1024.Idx → EReal := m ((c : Thread nD τ).loc main_arg2)

/-- The padding value: the integer zero converted to a float. -/
abbrev zeroPad : S_.Idx → EReal := sitofp (F := Ideal) .f32 (constantI S_ 32 0#32)

/-! ## The four operands as terms of the arguments -/

theorem Q_eq (c : Dev nD) :
    (V m c main_v4 : S32768x1024.Idx → EReal) = shapeCast S32768x1024 (query m c) shapeCasts_S8x4096x1024_S32768x1024 := by
  dsimp only [V, V0]
  simp only [hostOps0, hostOps0_1, hostOps0_2, hostOps0_3, hostOps0_4, List.flatten_cons, List.flatten_nil, List.append_nil, List.cons_append, List.nil_append]
  after_results
  rfl

theorem KL_eq (c : Dev nD) :
    (V m c main_v5 : S32768x1024.Idx → EReal) = shapeCast S32768x1024
      (pad S8x4096x1024 ![0, 1, 0] ![0, 0, 0] ![0, 0, 0]
        (extractStridedSlice S8x4095x1024 ![0, 0, 0] (key m c) slices_S8x4096x1024_S8x4095x1024_0_0_0) zeroPad
        pads_S8x4095x1024_S8x4096x1024_000_100_000 h_S_) shapeCasts_S8x4096x1024_S32768x1024 := by
  dsimp only [V, V0]
  simp only [hostOps0, hostOps0_1, hostOps0_2, hostOps0_3, hostOps0_4, List.flatten_cons, List.flatten_nil, List.append_nil, List.cons_append, List.nil_append]
  after_results
  rfl

theorem KR_eq (c : Dev nD) :
    (V m c main_v6 : S32768x1024.Idx → EReal) = shapeCast S32768x1024
      (pad S8x4096x1024 ![0, 0, 0] ![0, 1, 0] ![0, 0, 0]
        (extractStridedSlice S8x4095x1024 ![0, 1, 0] (key m c) slices_S8x4096x1024_S8x4095x1024_0_1_0) zeroPad
        pads_S8x4095x1024_S8x4096x1024_000_010_000 h_S_) shapeCasts_S8x4096x1024_S32768x1024 := by
  dsimp only [V, V0]
  simp only [hostOps0, hostOps0_1, hostOps0_2, hostOps0_3, hostOps0_4, List.flatten_cons, List.flatten_nil, List.append_nil, List.cons_append, List.nil_append]
  after_results
  rfl

theorem Wt_eq (c : Dev nD) :
    (V m c main_v8 : S1024x1024.Idx → EReal)
      = (transpose S1024x1024 [1, 0] (truncf (F := Ideal) .bf16 (weight m c) bitsLt_bf16_f32) transposes_S1024x1024_S1024x1024_1_0 : S1024x1024.Idx → EReal) := by
  dsimp only [V, V0]
  simp only [hostOps0, hostOps0_1, hostOps0_2, hostOps0_3, hostOps0_4, List.flatten_cons, List.flatten_nil, List.append_nil, List.cons_append, List.nil_append]
  after_results <;> rfl

/-! ## The same at an index -/

/-- Row `4096 b + s` of the re-laid array is `(b, s)` of the three-axis one. -/
theorem relay_apply (X : S8x4096x1024.Idx → EReal) (b : Fin 8) (s : Fin 4096) (h : Fin 1024) (r : Fin 32768) (hr : r.val = b.val * 4096 + s.val) :
    shapeCast S32768x1024 X shapeCasts_S8x4096x1024_S32768x1024 (ix2 r h) = X (ix3 b s h) :=
  shapeCast_apply X _ (ix2 r h) (ix3 b s h) (by
    rw [Shape.rowMajor_val_three, Shape.rowMajor_val_two]
    show (b.val * 4096 + s.val) * 1024 + h.val = r.val * 1024 + h.val
    rw [hr])

theorem Q_apply (c : Dev nD) (b : Fin 8) (s : Fin 4096) (h : Fin 1024) (r : Fin 32768) (hr : r.val = b.val * 4096 + s.val) :
    (V m c main_v4 : S32768x1024.Idx → EReal) (ix2 r h) = query m c (ix3 b s h) := by
  rw [Q_eq]; exact relay_apply _ b s h r hr

/-- Past the zero row in front, the down-shifted keys at position `s` are the keys at `s - 1`. -/
theorem KL_apply (c : Dev nD) (b : Fin 8) (s s' : Fin 4096) (o : Fin 1024) (r : Fin 32768) (hr : r.val = b.val * 4096 + s.val)
    (hs : s.val = 1 + s'.val) :
    (V m c main_v5 : S32768x1024.Idx → EReal) (ix2 r o) = key m c (ix3 b s' o) := by
  have hs' : s'.val < 4095 := by have := s.isLt; omega
  rw [KL_eq, relay_apply _ b s o r hr]
  refine (pad_apply_of_inside _ _ _ _ _ _ _ (ix3 b s o) (ix3 b (⟨s'.val, hs'⟩ : Fin 4095) o) (fun a => ?_)).trans ?_
  · match a with
    | ⟨0, _⟩ => show b.val = 0 + b.val * (0 + 1); omega
    | ⟨1, _⟩ => show s.val = 1 + s'.val * (0 + 1); omega
    | ⟨2, _⟩ => show o.val = 0 + o.val * (0 + 1); omega
  · exact slice3_axis1_apply 0 (key m c) slices_S8x4096x1024_S8x4095x1024_0_0_0 b ⟨s'.val, hs'⟩ o s' (by show s'.val = 0 + s'.val; omega)

/-- Before the zero row behind, the up-shifted keys at position `s` are the keys at `s + 1`. -/
theorem KR_apply (c : Dev nD) (b : Fin 8) (s s' : Fin 4096) (o : Fin 1024) (r : Fin 32768) (hr : r.val = b.val * 4096 + s.val)
    (hs : s'.val = 1 + s.val) :
    (V m c main_v6 : S32768x1024.Idx → EReal) (ix2 r o) = key m c (ix3 b s' o) := by
  have hs' : s.val < 4095 := by have := s'.isLt; omega
  rw [KR_eq, relay_apply _ b s o r hr]
  refine (pad_apply_of_inside _ _ _ _ _ _ _ (ix3 b s o) (ix3 b (⟨s.val, hs'⟩ : Fin 4095) o) (fun a => ?_)).trans ?_
  · match a with
    | ⟨0, _⟩ => show b.val = 0 + b.val * (0 + 1); omega
    | ⟨1, _⟩ => show s.val = 0 + s.val * (0 + 1); omega
    | ⟨2, _⟩ => show o.val = 0 + o.val * (0 + 1); omega
  · exact slice3_axis1_apply 1 (key m c) slices_S8x4096x1024_S8x4095x1024_0_1_0 b ⟨s.val, hs'⟩ o s' (by show s'.val = 1 + s.val; omega)

theorem Wt_apply (c : Dev nD) (h o : Fin 1024) :
    (V m c main_v8 : S1024x1024.Idx → EReal) (ix2 h o) = weight m c (ix2 o h) := by
  rw [Wt_eq]
  exact transpose_ix2_apply (truncf (F := Ideal) .bf16 (weight m c) bitsLt_bf16_f32) transposes_S1024x1024_S1024x1024_1_0 h o

end Cert.KernelIdeal.HostPre

end
-- ==== Proof.KernelTail.lean ====
/-
  The host lines after the launch.

  From the two [32768, 1] result arrays the host re-lays each as [8, 4096] and keeps, of the first, positions
  `1 … 4094` (`bandL`: entry `(b, j)` is row `4096 b + j + 1`), and of the second likewise positions
  `1 … 4094` (`bandR`: it first drops the last position, then the first). Everything after that is the
  specification's `tail` of those two [8, 4094] arrays, operation for operation.
-/
import proofs.«103119_j42906723287547_1_alg».proof.Proof.Gen.KernelIdeal.Frame
import proofs.«103119_j42906723287547_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HostTail

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

/-- Positions `1 … 4094` of the first result, as [8, 4094]. -/
def bandL (A : S32768x1.Idx → EReal) : S8x4094.Idx → EReal :=
  extractStridedSlice S8x4094 ![0, 0]
    (extractStridedSlice S8x4095 ![0, 1] (shapeCast S8x4096 A shapeCasts_S32768x1_S8x4096) slices_S8x4096_S8x4095_0_1)
    slices_S8x4095_S8x4094_0_0

/-- Positions `1 … 4094` of the second result, as [8, 4094]. -/
def bandR (A : S32768x1.Idx → EReal) : S8x4094.Idx → EReal :=
  extractStridedSlice S8x4094 ![0, 1]
    (extractStridedSlice S8x4095 ![0, 0] (shapeCast S8x4096 A shapeCasts_S32768x1_S8x4096) slices_S8x4096_S8x4095_0_0)
    slices_S8x4095_S8x4094_0_1

/-- Entry `(b, j)` of either band is row `4096 b + j + 1` of its result array. -/
theorem bandL_apply (A : S32768x1.Idx → EReal) (b : Fin 8) (j : Fin 4094) (r : Fin 32768) (hr : r.val = b.val * 4096 + (1 + j.val)) :
    bandL A (ix2 b j) = A (ix2 r (0 : Fin 1)) := by
  have hj : j.val < 4094 := j.isLt
  unfold bandL
  refine (slice2_axis1_apply 0 _ slices_S8x4095_S8x4094_0_0 b j (⟨j.val, by omega⟩ : Fin 4095) (by show j.val = 0 + j.val; omega)).trans ?_
  refine (slice2_axis1_apply 1 _ slices_S8x4096_S8x4095_0_1 b (⟨j.val, by omega⟩ : Fin 4095) (⟨1 + j.val, by omega⟩ : Fin 4096) rfl).trans ?_
  exact shapeCast_apply A shapeCasts_S32768x1_S8x4096 _ (ix2 r (0 : Fin 1)) (by
    rw [Shape.rowMajor_val_two, Shape.rowMajor_val_two]
    show r.val * 1 + 0 = b.val * 4096 + (1 + j.val)
    omega)

theorem bandR_apply (A : S32768x1.Idx → EReal) (b : Fin 8) (j : Fin 4094) (r : Fin 32768) (hr : r.val = b.val * 4096 + (1 + j.val)) :
    bandR A (ix2 b j) = A (ix2 r (0 : Fin 1)) := by
  have hj : j.val < 4094 := j.isLt
  unfold bandR
  refine (slice2_axis1_apply 1 _ slices_S8x4095_S8x4094_0_1 b j (⟨1 + j.val, by omega⟩ : Fin 4095) rfl).trans ?_
  refine (slice2_axis1_apply 0 _ slices_S8x4096_S8x4095_0_0 b (⟨1 + j.val, by omega⟩ : Fin 4095) (⟨1 + j.val, by omega⟩ : Fin 4096) (by show 1 + j.val = 0 + (1 + j.val); omega)).trans ?_
  exact shapeCast_apply A shapeCasts_S32768x1_S8x4096 _ (ix2 r (0 : Fin 1)) (by
    rw [Shape.rowMajor_val_two, Shape.rowMajor_val_two]
    show r.val * 1 + 0 = b.val * 4096 + (1 + j.val)
    omega)

set_option maxRecDepth 8192 in
set_option maxHeartbeats 4000000 in
/-- The result buffer after the host's last line: `tail` of the two bands of the region's result arrays. -/
theorem result_eq (c : Dev nD) :
    (Pipeline.afterTail₀ cfgs (dats m) 0 (V0 m) [hostOps1] c main_v42 : S8.Idx → EReal)
      = Cert.Band.tail (F := Ideal) (bandL ((dats m 0 c).arrAt 4 cfg0.N)) (bandR ((dats m 0 c).arrAt 5 cfg0.N)) := by
  unfold Pipeline.afterTail₀
  show StableHlo.after hostOps1 (Pipeline.withArrays spec0 c (V0 m c) fun w => (dats m 0 c).arrAt w cfg0.N) (Proc.devRef .tc main_v42) = _
  have e4 : (Pipeline.withArrays spec0 c (V0 m c) fun w => (dats m 0 c).arrAt w cfg0.N) (Proc.devRef .tc main_v9_0) = (dats m 0 c).arrAt 4 cfg0.N :=
    Pipeline.withArrays_arr spec0 launch0.win.arr_inj c _ _ 4
  have e5 : (Pipeline.withArrays spec0 c (V0 m c) fun w => (dats m 0 c).arrAt w cfg0.N) (Proc.devRef .tc main_v9_1) = (dats m 0 c).arrAt 5 cfg0.N :=
    Pipeline.withArrays_arr spec0 launch0.win.arr_inj c _ _ 5
  generalize (Pipeline.withArrays spec0 c (V0 m c) fun w => (dats m 0 c).arrAt w cfg0.N) = Wv at e4 e5 ⊢
  rw [← e4, ← e5]
  after_results_simp
  unfold Cert.Band.tail bandL bandR
  rfl

end Cert.KernelIdeal.HostTail

end
-- ==== Proof.KernelSide.lean ====
/-
  The kernel's side, assembled.

  Row `4096 b + j + 1` of the first result array is `∑ o, (∑ h, Q[r, h] * Wt[h, o]) * KL[r, o]` with
  `Q[r, h] = query[b, j+1, h]`, `Wt[h, o] = W[o, h]` and `KL[r, o] = key[b, j, o]`: that is `left[b, j]`. The
  second result array gives `right[b, j]` in the same way through `KR[r, o] = key[b, j+2, o]`. With the host lines
  after the launch, the program's result is the specification's `tail` of `left` and `right`.
-/
import proofs.«103119_j42906723287547_1_alg».proof.Proof.KernelArrays
import proofs.«103119_j42906723287547_1_alg».proof.Proof.KernelHostPre
import proofs.«103119_j42906723287547_1_alg».proof.Proof.KernelTail
import proofs.«103119_j42906723287547_1_alg».proof.Proof.Spec

noncomputable section

namespace Cert.KernelIdeal.KernelValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The lower band of the first result array is `left` of the arguments. -/
theorem left_eq (c : Dev nD) :
    HostTail.bandL ((dats m 0 c).arrAt 4 cfg0.N) = Cert.Band.leftBand (HostPre.query m c) (HostPre.key m c) (HostPre.weight m c) := by
  rw [Arrays.finalLeft]
  funext i
  obtain ⟨b, j, rfl⟩ : ∃ (b : Fin 8) (j : Fin 4094), i = ix2 b j := ⟨i 0, i 1, eq_ix2 i⟩
  have hb : b.val < 8 := b.isLt
  have hj : j.val < 4094 := j.isLt
  rw [HostTail.bandL_apply _ b j (⟨b.val * 4096 + (1 + j.val), by omega⟩ : Fin 32768) rfl]
  unfold Arrays.rowScores Cert.Band.leftBand Cert.Band.proj
  refine Finset.sum_congr rfl fun o _ => ?_
  refine congrArg₂ (· * ·) (Finset.sum_congr rfl fun h _ => congrArg₂ (· * ·) ?_ ?_) ?_
  · exact HostPre.Q_apply m c b (⟨1 + j.val, by omega⟩ : Fin 4096) h _ rfl
  · exact HostPre.Wt_apply m c h o
  · exact HostPre.KL_apply m c b (⟨1 + j.val, by omega⟩ : Fin 4096) (⟨j.val, by omega⟩ : Fin 4096) o _ rfl rfl

/-- The band of the second result array is `right` of the arguments. -/
theorem right_eq (c : Dev nD) :
    HostTail.bandR ((dats m 0 c).arrAt 5 cfg0.N) = Cert.Band.rightBand (HostPre.query m c) (HostPre.key m c) (HostPre.weight m c) := by
  rw [Arrays.finalRight]
  funext i
  obtain ⟨b, j, rfl⟩ : ∃ (b : Fin 8) (j : Fin 4094), i = ix2 b j := ⟨i 0, i 1, eq_ix2 i⟩
  have hb : b.val < 8 := b.isLt
  have hj : j.val < 4094 := j.isLt
  rw [HostTail.bandR_apply _ b j (⟨b.val * 4096 + (1 + j.val), by omega⟩ : Fin 32768) rfl]
  unfold Arrays.rowScores Cert.Band.rightBand Cert.Band.proj
  refine Finset.sum_congr rfl fun o _ => ?_
  refine congrArg₂ (· * ·) (Finset.sum_congr rfl fun h _ => congrArg₂ (· * ·) ?_ ?_) ?_
  · exact HostPre.Q_apply m c b (⟨1 + j.val, by omega⟩ : Fin 4096) h _ rfl
  · exact HostPre.Wt_apply m c h o
  · exact HostPre.KR_apply m c b (⟨1 + j.val, by omega⟩ : Fin 4096) (⟨2 + j.val, by omega⟩ : Fin 4096) o _ rfl
      (by show 2 + j.val = 1 + (1 + j.val); omega)

/-- Every weakly fair execution of the kernel's program ends with its result at `tail left right` of the arguments,
    the arguments unchanged. -/
theorem run : θ_run defs (onTc (τ := τ) (main (F := Ideal))) ⟨m, fun _ => 0, ρ⟩ fun r => ∀ c : Dev nD,
      r.2.mem ((c : Thread nD τ).loc main_v42)
        = Cert.Band.tail (F := Ideal) (Cert.Band.leftBand (HostPre.query m c) (HostPre.key m c) (HostPre.weight m c))
            (Cert.Band.rightBand (HostPre.query m c) (HostPre.key m c) (HostPre.weight m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v42 (Pipeline.mem_restRefs_of main_v42 (by decide) (by decide))).trans
        ((HostTail.result_eq m c).trans (by rw [left_eq, right_eq])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelValue

end
-- ==== Proof.lean ====
/-
  Both programs compute one function of `query`, `key` and `W`.

  With `inter[b, s, o] = ∑ h, query[b, s, h] * W[o, h]`, the two band scores
    left[b, j]  = ∑ o, inter[b, j+1, o] * key[b, j, o],      right[b, j] = ∑ o, inter[b, j+1, o] * key[b, j+2, o]   (j < 4094)
  determine the result: a two-way softmax of (left, right) at each position, the product of the right probability
  at `j` with the left one at `j + 1`, then `exp (∑ j, log (sqrt (· + ε₁) + ε₂))` (Proof/Spec.lean, `Band.tail`).

  The reference forms `inter` whole, multiplies it by the keys shifted by one position either way, sums over the last
  axis and slices (Proof/RefSide.lean). The kernel instead shifts the keys on the host (padding a zero row in front or
  behind), flattens batch and position into 32768 rows, and in one pass over 64 tiles of 512 rows multiplies each
  query tile by the transposed weight and takes the two row sums against the shifted keys; the host then re-lays the
  two columns of row sums and cuts out positions `1 … 4094` (Proof/KernelPayload.lean, KernelArrays.lean,
  KernelHostPre.lean, KernelTail.lean, KernelSide.lean). The padded zero rows meet only positions that are cut away,
  so no product with them is ever kept, and both programs' sums run over the same index sets in the same nesting:
  no distributive law is needed and the precondition (finite inputs) is never opened. From the two [8, 4094]
  arrays on, the two programs' host lines are the same operations.

  The frames: the kernel's two by its launch and body run at every grid point, the reference's by its run with the
  result dropped. The idealization rewrote no operation, so there is nothing to preserve.
-/
import proofs.«103119_j42906723287547_1_alg».proof.Defs
import proofs.«103119_j42906723287547_1_alg».proof.Proof.Gen.Kernel
import proofs.«103119_j42906723287547_1_alg».proof.Proof.Gen.Kernel.Skeleton
import proofs.«103119_j42906723287547_1_alg».proof.Proof.Gen.Kernel.Launch
import proofs.«103119_j42906723287547_1_alg».proof.Proof.Gen.Kernel.Points
import proofs.«103119_j42906723287547_1_alg».proof.Proof.Gen.Kernel.Frame
import proofs.«103119_j42906723287547_1_alg».proof.Proof.Gen.KernelIdeal
import proofs.«103119_j42906723287547_1_alg».proof.Proof.Gen.KernelIdeal.Skeleton
import proofs.«103119_j42906723287547_1_alg».proof.Proof.Gen.KernelIdeal.Launch
import proofs.«103119_j42906723287547_1_alg».proof.Proof.Gen.KernelIdeal.Points
import proofs.«103119_j42906723287547_1_alg».proof.Proof.Gen.KernelIdeal.Frame
import proofs.«103119_j42906723287547_1_alg».proof.Proof.Gen.ReferenceIdeal
import proofs.«103119_j42906723287547_1_alg».proof.Proof.Gen.Pre_finite_inputs
import proofs.«103119_j42906723287547_1_alg».proof.Proof.Gen.ReferenceIdeal.Run
import proofs.«103119_j42906723287547_1_alg».proof.Proof.Gen.ReferenceIdeal.Read
import proofs.«103119_j42906723287547_1_alg».proof.Proof.Spec
import proofs.«103119_j42906723287547_1_alg».proof.Proof.RefSide
import proofs.«103119_j42906723287547_1_alg».proof.Proof.KernelSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's program ends at `tail left right` of its arguments, and so does the reference on arguments that
    agree with them. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceIdeal.RefValue.result_is_tail,
    Cert.ReferenceIdeal.RefValue.left_eq, Cert.ReferenceIdeal.RefValue.right_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
